-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S2048x2048 : Shape := ⟨2, ![2048, 2048]⟩
abbrev S2048 : Shape := ⟨1, ![2048]⟩
abbrev S16x2048 : Shape := ⟨2, ![16, 2048]⟩
abbrev S2048x16 : Shape := ⟨2, ![2048, 16]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_
  bcast_S_S16x2048 : S_.BroadcastsInDim S16x2048 (![] : Fin 0 → Fin S16x2048.rank)
  reducesTo_S16x2048_S_d0_1 : S16x2048.ReducesTo [0, 1] S_
  bcast_S_S2048x16 : S_.BroadcastsInDim S2048x16 (![] : Fin 0 → Fin S2048x16.rank)
  reducesTo_S2048x16_S_d0_1 : S2048x16.ReducesTo [0, 1] S_

variable [Facts]

def fn_part1 {F : FTy → Type} [FloatOps F] (main_arg4 : FVec F S2048x16 .f32) (main_v13 : IVec S_ 1) (main_v16 : IVec S16x2048 1) : IVec S_ 1 :=
  let main_c_5 : IVec S_ 1 := constantI S_ 1 1#1
  let main_v17 : IVec S_ 1 := (fun x v => Host.reduce IntOp.andi x v reducesTo_S16x2048_S_d0_1 h_S_) main_v16 main_c_5
  let main_v18 : IVec S_ 1 := andi main_v13 main_v17
  let main_v19 : FVec F S2048x16 .f32 := Host.absf main_arg4
  let main_cst_6 : FVec F S_ .f32 := constant S_ .f32 0x7F800000#32
  let main_v20 : FVec F S2048x16 .f32 := broadcastInDim S2048x16 ![] bcast_S_S2048x16 main_cst_6
  let main_v21 : IVec S2048x16 1 := cmpf .olt main_v19 main_v20
  let main_c_7 : IVec S_ 1 := constantI S_ 1 1#1
  let main_v22 : IVec S_ 1 := (fun x v => Host.reduce IntOp.andi x v reducesTo_S2048x16_S_d0_1 h_S_) main_v21 main_c_7
  let main_v23 : IVec S_ 1 := andi main_v18 main_v22
  main_v23

def fn {F : FTy → Type} [FloatOps F] (main_arg0 : FVec F S4x2048x2048 .f32) (main_arg1 : FVec F S2048x2048 .f32) (main_arg2 : FVec F S2048 .f32) (main_arg3 : FVec F S16x2048 .f32) (main_arg4 : FVec F S2048x16 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S16x2048 .f32 := Host.absf main_arg3
  let main_cst_4 : FVec F S_ .f32 := constant S_ .f32 0x7F800000#32
  let main_v15 : FVec F S16x2048 .f32 := broadcastInDim S16x2048 ![] bcast_S_S16x2048 main_cst_4
  let main_v16 : IVec S16x2048 1 := cmpf .olt main_v14 main_v15
  fn_part1 (F := F) main_arg4 main_v13 main_v16
-- ==== Kernel.lean ====
abbrev S4x2048x2048 : Shape := ⟨3, ![4, 2048, 2048]⟩
abbrev S2048x2048 : Shape := ⟨2, ![2048, 2048]⟩
abbrev S2048 : Shape := ⟨1, ![2048]⟩
abbrev S16x2048 : Shape := ⟨2, ![16, 2048]⟩
abbrev S2048x16 : Shape := ⟨2, ![2048, 16]⟩
abbrev S8192x2048 : Shape := ⟨2, ![8192, 2048]⟩
abbrev S1x2048 : Shape := ⟨2, ![1, 2048]⟩
abbrev S1024x512 : Shape := ⟨2, ![1024, 512]⟩
abbrev S16x512 : Shape := ⟨2, ![16, 512]⟩
abbrev S1024x16 : Shape := ⟨2, ![1024, 16]⟩
abbrev S1x1024 : Shape := ⟨2, ![1, 1024]⟩
abbrev S1024x1024 : Shape := ⟨2, ![1024, 1024]⟩

abbrev nBuf : Space → Nat
  | .hbm => 9
  | .vmem => 14
  | .smem => 0
  | _ => 0

abbrev bufTy : (tb : Table) → Fin (tcTables nBuf tb) → BufTy
  | .hbm, ⟨0, _⟩ => ⟨S4x2048x2048, .f32⟩
  | .hbm, ⟨1, _⟩ => ⟨S2048x2048, .f32⟩
  | .hbm, ⟨2, _⟩ => ⟨S2048, .f32⟩
  | .hbm, ⟨3, _⟩ => ⟨S16x2048, .f32⟩
  | .hbm, ⟨4, _⟩ => ⟨S2048x16, .f32⟩
  | .hbm, ⟨5, _⟩ => ⟨S8192x2048, .f32⟩
  | .hbm, ⟨6, _⟩ => ⟨S1x2048, .f32⟩
  | .hbm, ⟨7, _⟩ => ⟨S8192x2048, .f32⟩
  | .hbm, ⟨8, _⟩ => ⟨S4x2048x2048, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S16x512, .f32⟩
  | .local _ .vmem, ⟨5, _⟩ => ⟨S16x512, .f32⟩
  | .local _ .vmem, ⟨6, _⟩ => ⟨S1024x16, .f32⟩
  | .local _ .vmem, ⟨7, _⟩ => ⟨S1024x16, .f32⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | .local _ .vmem, ⟨13, _⟩ => ⟨S1024x16, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 2, 4], ![false, false, false]⟩

def k0_cond2 (i : grid0.Coords) : BitVec 1 :=
  let arg2 : BitVec 32 := BitVec.ofNat 32 (i 2).val
  let c3_i32 : BitVec 32 := 3#32
  let v22 : BitVec 1 := Scalar.cmpi .eq arg2 c3_i32
  let v23 : BitVec 32 := Scalar.extui v22
  let c0_i32_15 : BitVec 32 := 0#32
  let v24 : BitVec 1 := Scalar.cmpi .ne v23 c0_i32_15
  v24

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S16x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S1024x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  shapeCasts_S4x2048x2048_S8192x2048 : S4x2048x2048.ShapeCasts S8192x2048
  shapeCasts_S2048_S1x2048 : S2048.ShapeCasts S1x2048
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  bitsLt_bf16_f32 : FTy.bits .bf16 < FTy.bits .f32
  inb_S16x512_S16x512_0_0 : ∀ a, (![0, 0] : Fin 2 → Nat) a + S16x512.size a ≤ S16x512.size a
  h_S16x512 : 0 < S16x512.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x2048_S4x2048x2048 : S8192x2048.ShapeCasts S4x2048x2048
  dot_S1024x512_S1024x512_S1024x1024_1_1_0_0_n_n_wf : DotDims.WF S1024x512 S1024x512 S1024x1024 [1] [1] [0] [0] [] []
  dot_S1024x512_S16x512_S1024x16_1_1_0_0_n_n_wf : DotDims.WF S1024x512 S16x512 S1024x16 [1] [1] [0] [0] [] []
  dot_S1024x16_S1024x16_S1024x1024_1_1_0_0_n_n_wf : DotDims.WF S1024x16 S1024x16 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x2048.size a
  hwx0_0 : ∀ i : grid0.Coords, EltTy.bits .f32 = 32 ∨ (Rect.block (s := S8192x2048) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S2048x2048.size a
  hwx0_1 : ∀ i : grid0.Coords, EltTy.bits .f32 = 32 ∨ (Rect.block (s := S2048x2048) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x512.size a ≤ S16x2048.size a
  hwx0_2 : ∀ i : grid0.Coords, EltTy.bits .f32 = 32 ∨ (Rect.block (s := S16x2048) S16x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x16.size a ≤ S2048x16.size a
  hwx0_3 : ∀ i : grid0.Coords, EltTy.bits .f32 = 32 ∨ (Rect.block (s := S2048x16) S1024x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x2048.size a
  hwx0_4 : ∀ i : grid0.Coords, EltTy.bits .f32 = 32 ∨ (Rect.block (s := S1x2048) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S8192x2048.size a
  hwx0_5 : ∀ i : grid0.Coords, EltTy.bits .f32 = 32 ∨ (Rect.block (s := S8192x2048) S1024x1024.size (cc0_transform_5 i) (hinb0_5 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf
def dot_S1024x512_S16x512_S1024x16_1_1_0_0_n_n : DotDims S1024x512 S16x512 S1024x16 where
  lhsContracting := [1]
  rhsContracting := [1]
  lhsNonContracting := [0]
  rhsNonContracting := [0]
  lhsBatch := []
  rhsBatch := []
  wf := dot_S1024x512_S16x512_S1024x16_1_1_0_0_n_n_wf
def dot_S1024x16_S1024x16_S1024x1024_1_1_0_0_n_n : DotDims S1024x16 S1024x16 S1024x1024 where
  lhsContracting := [1]
  rhsContracting := [1]
  lhsNonContracting := [0]
  rhsNonContracting := [0]
  lhsBatch := []
  rhsBatch := []
  wf := dot_S1024x16_S1024x16_S1024x1024_1_1_0_0_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S16x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1024x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4x2048x2048 : Shape := ⟨3, ![4, 2048, 2048]⟩
abbrev S2048x2048 : Shape := ⟨2, ![2048, 2048]⟩
abbrev S2048 : Shape := ⟨1, ![2048]⟩
abbrev S16x2048 : Shape := ⟨2, ![16, 2048]⟩
abbrev S2048x16 : Shape := ⟨2, ![2048, 16]⟩
abbrev S1x1x2048 : Shape := ⟨3, ![1, 1, 2048]⟩
abbrev S4x2048x16 : Shape := ⟨3, ![4, 2048, 16]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048x2048, .f32⟩
  | .hbm, ⟨2, _⟩ => ⟨S2048, .f32⟩
  | .hbm, ⟨3, _⟩ => ⟨S16x2048, .f32⟩
  | .hbm, ⟨4, _⟩ => ⟨S2048x16, .f32⟩
  | .hbm, ⟨5, _⟩ => ⟨S4x2048x2048, .f32⟩
  | .hbm, ⟨6, _⟩ => ⟨S1x1x2048, .f32⟩
  | .hbm, ⟨7, _⟩ => ⟨S4x2048x2048, .f32⟩
  | .hbm, ⟨8, _⟩ => ⟨S4x2048x2048, .f32⟩
  | .hbm, ⟨9, _⟩ => ⟨S4x2048x16, .f32⟩
  | .hbm, ⟨10, _⟩ => ⟨S4x2048x2048, .f32⟩
  | .hbm, ⟨11, _⟩ => ⟨S_, .f32⟩
  | .hbm, ⟨12, _⟩ => ⟨S4x2048x2048, .f32⟩
  | .hbm, ⟨13, _⟩ => ⟨S4x2048x2048, .f32⟩
  | .hbm, ⟨14, _⟩ => ⟨S4x2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  bcast_S2048_S1x1x2048_2 : S2048.BroadcastsInDim S1x1x2048 (![2] : Fin 1 → Fin S1x1x2048.rank)
  bcast_S1x1x2048_S4x2048x2048_0_1_2 : S1x1x2048.BroadcastsInDim S4x2048x2048 (![0, 1, 2] : Fin 3 → Fin S4x2048x2048.rank)
  bcast_S_S4x2048x2048 : S_.BroadcastsInDim S4x2048x2048 (![] : Fin 0 → Fin S4x2048x2048.rank)
  dot_S4x2048x2048_S2048x2048_S4x2048x2048_2_1_01_0_n_n_wf : DotDims.WF S4x2048x2048 S2048x2048 S4x2048x2048 [2] [1] [0, 1] [0] [] []
  dot_S4x2048x2048_S16x2048_S4x2048x16_2_1_01_0_n_n_wf : DotDims.WF S4x2048x2048 S16x2048 S4x2048x16 [2] [1] [0, 1] [0] [] []
  dot_S4x2048x16_S2048x16_S4x2048x2048_2_1_01_0_n_n_wf : DotDims.WF S4x2048x16 S2048x16 S4x2048x2048 [2] [1] [0, 1] [0] [] []

variable [Facts₀]

def dot_S4x2048x2048_S2048x2048_S4x2048x2048_2_1_01_0_n_n : DotDims S4x2048x2048 S2048x2048 S4x2048x2048 where
  lhsContracting := [2]
  rhsContracting := [1]
  lhsNonContracting := [0, 1]
  rhsNonContracting := [0]
  lhsBatch := []
  rhsBatch := []
  wf := dot_S4x2048x2048_S2048x2048_S4x2048x2048_2_1_01_0_n_n_wf
def dot_S4x2048x2048_S16x2048_S4x2048x16_2_1_01_0_n_n : DotDims S4x2048x2048 S16x2048 S4x2048x16 where
  lhsContracting := [2]
  rhsContracting := [1]
  lhsNonContracting := [0, 1]
  rhsNonContracting := [0]
  lhsBatch := []
  rhsBatch := []
  wf := dot_S4x2048x2048_S16x2048_S4x2048x16_2_1_01_0_n_n_wf
def dot_S4x2048x16_S2048x16_S4x2048x2048_2_1_01_0_n_n : DotDims S4x2048x16 S2048x16 S4x2048x2048 where
  lhsContracting := [2]
  rhsContracting := [1]
  lhsNonContracting := [0, 1]
  rhsNonContracting := [0]
  lhsBatch := []
  rhsBatch := []
  wf := dot_S4x2048x16_S2048x16_S4x2048x2048_2_1_01_0_n_n_wf

class Facts : Prop extends Facts₀ where

variable [Facts]
-- ==== Proof.Pieces.lean ====
/-
  What each control case of the body leaves behind, as the body's own arithmetic.

  The body keeps two accumulators between grid points: acc [1024, 1024] (the base product so far) and low
  [1024, 16] (the rank-16 bottleneck so far).  At the first K-tile (case A) both are zeroed and then receive the
  tile's products; at the middle tiles (case B) they receive the tile's products over what the tile before left; at
  the last tile (case C) they do the same and the output block is (acc + bias) + (low · Bᵀ) · 2 of the accumulators
  just updated.  Each statement below reads a case's covering stores back as one value: a whole-buffer store read
  back is its payload, and a whole-buffer load after a whole-buffer store reads that store.
-/
import proofs.«146744_j8555574854313_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- Case A leaves in acc the first tile's product added to the zero block. -/
theorem acc_A (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S16x512 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : cond0_0 i) (hc1 : ¬cond0_1 i)
    (x0 : Vec F S1024x512 .f32) (x1 : Vec F S1024x512 .f32) (x2 : Vec F S16x512 .f32) (x3 : Vec F S1024x16 .f32) (x4 : Vec F S1x1024 .f32) :
    sout0_A_0 c i arg3 harg3 arg4 harg4 arg5 harg5 arg6 harg6 arg7 harg7 arg8 harg8 arg9 harg9 arg10 harg10 hc0 hc1 x0 x1 x2 x3 x4 = k0_pay4 x0 x1 (k0_pay1 (F := F)) := by
  unfold sout0_A_0
  rw [View.read_writes_eq_canon _ _ _ (scover0_A_0 c i arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, harg5.read_unread, harg6.read_unread, harg7.read_unread, harg8.read_unread, harg9.read_unread, harg10.read_unread, View.ld_unit_zero (S := S1024x512) hz, View.ld_unit_zero (S := S16x512) hz, View.ld_unit_zero (S := S1024x16) hz, View.ld_unit_zero (S := S1x1024) hz, View.ld_unit_zero (S := S1024x1024) hz]

/-- Case A leaves in low the first tile's bottleneck product added to the zero block. -/
theorem low_A (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S16x512 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : cond0_0 i) (hc1 : ¬cond0_1 i)
    (x0 : Vec F S1024x512 .f32) (x1 : Vec F S1024x512 .f32) (x2 : Vec F S16x512 .f32) (x3 : Vec F S1024x16 .f32) (x4 : Vec F S1x1024 .f32) :
    sout0_A_1 c i arg3 harg3 arg4 harg4 arg5 harg5 arg6 harg6 arg7 harg7 arg8 harg8 arg9 harg9 arg10 harg10 hc0 hc1 x0 x1 x2 x3 x4 = k0_pay5 x0 x2 (k0_pay2 (F := F)) := by
  unfold sout0_A_1
  rw [View.read_writes_eq_canon _ _ _ (scover0_A_1 c i arg3 harg3 arg4 harg4 arg5 harg5 arg6 harg6 arg7 harg7 arg8 harg8 arg9 harg9 arg10 harg10 hc0 hc1 x0 x1 x2 x3 x4)]
  unfold kernelRun0_A
  dsimp only
  sl_unfold_words
  rw [View.canon_cons_unit_zero (S := S1024x16) hz, View.readCov_unit_zero (S := S1024x16) _ hz]
  simp only [View.readAt_eq_ld, harg3.read_unread, harg4.read_unread, harg5.read_unread, harg6.read_unread, harg7.read_unread, harg8.read_unread, harg9.read_unread, harg10.read_unread, View.ld_unit_zero (S := S1024x512) hz, View.ld_unit_zero (S := S16x512) hz, View.ld_unit_zero (S := S1024x16) hz, View.ld_unit_zero (S := S1x1024) hz, View.ld_unit_zero (S := S1024x1024) hz]

/-- Case B adds the tile's product to what acc held. -/
theorem acc_B (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S16x512 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : ¬cond0_0 i) (hc1 : ¬cond0_1 i)
    (x0 : Vec F S1024x512 .f32) (x1 : Vec F S1024x512 .f32) (x2 : Vec F S16x512 .f32) (x3 : Vec F S1024x16 .f32) (x4 : Vec F S1x1024 .f32) (xs0 : Vec F S1024x1024 .f32) (xs1 : Vec F S1024x16 .f32) :
    sout0_B_0 c i arg3 harg3 arg4 harg4 arg5 harg5 arg6 harg6 arg7 harg7 arg8 harg8 arg9 harg9 arg10 harg10 hc0 hc1 x0 x1 x2 x3 x4 xs0 xs1 = k0_pay4 x0 x1 xs0 := by
  unfold sout0_B_0
  rw [View.read_writes_eq_canon _ _ _ (scover0_B_0 c i arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  rw [View.canon_unit_zero hz]
  simp only [View.readAt_eq_ld, harg3.read_unread, harg4.read_unread, harg5.read_unread, harg6.read_unread, harg7.read_unread, harg8.read_unread, harg9.read_unread, harg10.read_unread, View.ld_unit_zero (S := S1024x512) hz, View.ld_unit_zero (S := S16x512) hz, View.ld_unit_zero (S := S1024x16) hz, View.ld_unit_zero (S := S1x1024) hz, View.ld_unit_zero (S := S1024x1024) hz, View.readCov_unit_zero (S := S1024x1024) _ hz, View.readCov_unit_zero (S := S1024x16) _ hz]

/-- Case B adds the tile's bottleneck product to what low held. -/
theorem low_B (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S16x512 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : ¬cond0_0 i) (hc1 : ¬cond0_1 i)
    (x0 : Vec F S1024x512 .f32) (x1 : Vec F S1024x512 .f32) (x2 : Vec F S16x512 .f32) (x3 : Vec F S1024x16 .f32) (x4 : Vec F S1x1024 .f32) (xs0 : Vec F S1024x1024 .f32) (xs1 : Vec F S1024x16 .f32) :
    sout0_B_1 c i arg3 harg3 arg4 harg4 arg5 harg5 arg6 harg6 arg7 harg7 arg8 harg8 arg9 harg9 arg10 harg10 hc0 hc1 x0 x1 x2 x3 x4 xs0 xs1 = k0_pay5 x0 x2 xs1 := by
  unfold sout0_B_1
  rw [View.read_writes_eq_canon _ _ _ (scover0_B_1 c i arg3 harg3 arg4 harg4 arg5 harg5 arg6 harg6 arg7 harg7 arg8 harg8 arg9 harg9 arg10 harg10 hc0 hc1 x0 x1 x2 x3 x4 xs0 xs1)]
  unfold kernelRun0_B
  dsimp only
  sl_unfold_words
  rw [View.canon_unit_zero hz]
  simp only [View.readAt_eq_ld, harg3.read_unread, harg4.read_unread, harg5.read_unread, harg6.read_unread, harg7.read_unread, harg8.read_unread, harg9.read_unread, harg10.read_unread, View.ld_unit_zero (S := S1024x512) hz, View.ld_unit_zero (S := S16x512) hz, View.ld_unit_zero (S := S1024x16) hz, View.ld_unit_zero (S := S1x1024) hz, View.ld_unit_zero (S := S1024x1024) hz, View.readCov_unit_zero (S := S1024x1024) _ hz, View.readCov_unit_zero (S := S1024x16) _ hz]

/-- Case C adds the last tile's product to what acc held. -/
theorem acc_C (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S16x512 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : ¬cond0_0 i) (hc1 : cond0_1 i)
    (x0 : Vec F S1024x512 .f32) (x1 : Vec F S1024x512 .f32) (x2 : Vec F S16x512 .f32) (x3 : Vec F S1024x16 .f32) (x4 : Vec F S1x1024 .f32) (xs0 : Vec F S1024x1024 .f32) (xs1 : Vec F S1024x16 .f32) :
    sout0_C_0 c i arg3 harg3 arg4 harg4 arg5 harg5 arg6 harg6 arg7 harg7 arg8 harg8 arg9 harg9 arg10 harg10 hc0 hc1 x0 x1 x2 x3 x4 xs0 xs1 = k0_pay4 x0 x1 xs0 := by
  unfold sout0_C_0
  rw [View.read_writes_eq_canon _ _ _ (scover0_C_0 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero hz]
  simp only [View.readAt_eq_ld, harg3.read_unread, harg4.read_unread, harg5.read_unread, harg6.read_unread, harg7.read_unread, harg8.read_unread, harg9.read_unread, harg10.read_unread, View.ld_unit_zero (S := S1024x512) hz, View.ld_unit_zero (S := S16x512) hz, View.ld_unit_zero (S := S1024x16) hz, View.ld_unit_zero (S := S1x1024) hz, View.ld_unit_zero (S := S1024x1024) hz, View.readCov_unit_zero (S := S1024x1024) _ hz, View.readCov_unit_zero (S := S1024x16) _ hz]

/-- Case C adds the last tile's bottleneck product to what low held. -/
theorem low_C (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S16x512 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : ¬cond0_0 i) (hc1 : cond0_1 i)
    (x0 : Vec F S1024x512 .f32) (x1 : Vec F S1024x512 .f32) (x2 : Vec F S16x512 .f32) (x3 : Vec F S1024x16 .f32) (x4 : Vec F S1x1024 .f32) (xs0 : Vec F S1024x1024 .f32) (xs1 : Vec F S1024x16 .f32) :
    sout0_C_1 c i arg3 harg3 arg4 harg4 arg5 harg5 arg6 harg6 arg7 harg7 arg8 harg8 arg9 harg9 arg10 harg10 hc0 hc1 x0 x1 x2 x3 x4 xs0 xs1 = k0_pay5 x0 x2 xs1 := by
  unfold sout0_C_1
  rw [View.read_writes_eq_canon _ _ _ (scover0_C_1 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero hz]
  simp only [View.readAt_eq_ld, harg3.read_unread, harg4.read_unread, harg5.read_unread, harg6.read_unread, harg7.read_unread, harg8.read_unread, harg9.read_unread, harg10.read_unread, View.ld_unit_zero (S := S1024x512) hz, View.ld_unit_zero (S := S16x512) hz, View.ld_unit_zero (S := S1024x16) hz, View.ld_unit_zero (S := S1x1024) hz, View.ld_unit_zero (S := S1024x1024) hz, View.readCov_unit_zero (S := S1024x1024) _ hz, View.readCov_unit_zero (S := S1024x16) _ hz]

/-- Case C's output block: (acc + bias) + (low · Bᵀ) · 2 of the two accumulators as this point leaves them. -/
theorem out_C (c : Dev nD) (i : grid0.Coords) (arg3 : Memref sig .tc .vmem S1024x512 .f32) (harg3 : arg3.IsWhole) (arg4 : Memref sig .tc .vmem S1024x512 .f32) (harg4 : arg4.IsWhole) (arg5 : Memref sig .tc .vmem S16x512 .f32) (harg5 : arg5.IsWhole) (arg6 : Memref sig .tc .vmem S1024x16 .f32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (arg10 : Memref sig .tc .vmem S1024x16 .f32) (harg10 : arg10.IsWhole) (hc0 : ¬cond0_0 i) (hc1 : cond0_1 i)
    (x0 : Vec F S1024x512 .f32) (x1 : Vec F S1024x512 .f32) (x2 : Vec F S16x512 .f32) (x3 : Vec F S1024x16 .f32) (x4 : Vec F S1x1024 .f32) (xs0 : Vec F S1024x1024 .f32) (xs1 : Vec F S1024x16 .f32) :
    out0_C_5 c i arg3 harg3 arg4 harg4 arg5 harg5 arg6 harg6 arg7 harg7 arg8 harg8 arg9 harg9 arg10 harg10 hc0 hc1 x0 x1 x2 x3 x4 xs0 xs1 = k0_pay6 (k0_pay5 x0 x2 xs1) x3 (k0_pay4 x0 x1 xs0) x4 := by
  unfold out0_C_5
  rw [View.read_writes_eq_canon _ _ _ (cover0_C_5 c i arg3 harg3 arg4 harg4 arg5 harg5 arg6 harg6 arg7 harg7 arg8 harg8 arg9 harg9 arg10 harg10 hc0 hc1 x0 x1 x2 x3 x4 xs0 xs1)]
  unfold kernelRun0_C
  dsimp only
  sl_unfold_words
  rw [View.canon_unit_zero hz]
  simp only [View.readAt_eq_ld, harg3.read_unread, harg4.read_unread, harg5.read_unread, harg6.read_unread, harg7.read_unread, harg8.read_unread, harg9.read_unread, harg10.read_unread, View.ld_unit_zero (S := S1024x512) hz, View.ld_unit_zero (S := S16x512) hz, View.ld_unit_zero (S := S1024x16) hz, View.ld_unit_zero (S := S1x1024) hz, View.ld_unit_zero (S := S1024x1024) hz, View.readCov_unit_zero (S := S1024x1024) _ hz, View.readCov_unit_zero (S := S1024x16) _ hz]

end Cert.KernelIdeal.Pieces

end
-- ==== Proof.Spec.lean ====
/-
  LinearWithLoRA over the extended reals, index by index.

  With X the activations flattened to [8192, 2048] (row r = 2048·b + s), W [2048, 2048], A [16, 2048], B [2048, 16]
  and the bias a [1, 2048] row, entry (r, o) of the result is

      (∑_d X[r,d]·W[o,d] + bias[o]) + (∑_j (∑_d X[r,d]·A[j,d]) · B[o,j]) · 2 .

  The kernel reaches each contraction over d in four tiles of 512 columns, added one after the other to a zero; the
  reference contracts all 2048 columns at once.  The two agree in any additive commutative monoid: a sum over
  Fin 2048 is the sum over the four tiles of the sums inside each tile (`sum_tiles`), so no finiteness of the inputs
  is used.  Tile and row-block numbers are natural numbers here, folded back into range by a remainder that never
  acts on the tiles that exist (k < 4, i < 8, j < 2); that keeps every partial sum a plain `Finset.range` sum.
-/
import Idealize.ShloMosaic.PureOps.Ideal
import Idealize.ShloMosaic.Lib.ValueIdx
import Mathlib.Algebra.BigOperators.Fin

noncomputable section

namespace Cert.LoraSpec

open Idealize.ShloMosaic Idealize.ShloMosaic.ValueIdx

/-- The scale alpha / rank = 2, the one float word both programs print for it. -/
abbrev two : EReal := Ideal.ofBits .f32 0x40000000#32

/-- Column `e` of K-tile `k` (512 columns a tile). -/
def colN (k : ℕ) (e : Fin 512) : Fin 2048 := ⟨(512 * k + e.val) % 2048, Nat.mod_lt _ (by norm_num)⟩

/-- Row `p` of row block `i` of an array of `n` rows cut into blocks of 1024. -/
def rowN (n : ℕ) [NeZero n] (i : ℕ) (p : Fin 1024) : Fin n := ⟨(1024 * i + p.val) % n, Nat.mod_lt _ (NeZero.pos n)⟩

theorem colN_val (k : ℕ) (e : Fin 512) (hk : k < 4) : (colN k e).val = 512 * k + e.val := by
  have := e.isLt
  show (512 * k + e.val) % 2048 = _
  omega

/-- A sum over the 2048 columns is the sum over the four tiles of the sums inside each tile. -/
theorem sum_tiles {M : Type*} [AddCommMonoid M] (f : Fin 2048 → M) :
    ∑ k ∈ Finset.range 4, ∑ e : Fin 512, f (colN k e) = ∑ d : Fin 2048, f d := by
  rw [Finset.sum_range (fun k => ∑ e : Fin 512, f (colN k e))]
  rw [← Fintype.sum_prod_type' (fun (a : Fin 4) (e : Fin 512) => f (colN a.val e))]
  refine Fintype.sum_equiv (finProdFinEquiv (m := 4) (n := 512)) _ _ (fun ae => ?_)
  obtain ⟨a, e⟩ := ae
  refine congrArg f (Fin.ext ?_)
  have ha := a.isLt
  have he := e.isLt
  show (512 * a.val + e.val) % 2048 = e.val + 512 * a.val
  omega

variable {n : ℕ}

/-- Row `r` of X against row `o` of a weight of 2048 columns: one whole contraction. -/
def dotRow (X : (⟨2, ![8192, 2048]⟩ : Shape).Idx → EReal) (Wt : (⟨2, ![n, 2048]⟩ : Shape).Idx → EReal)
    (r : Fin 8192) (o : Fin n) : EReal :=
  ∑ d : Fin 2048, X (ix2 r d) * Wt (ix2 o d)

/-- The same contraction inside K-tile `k` only. -/
def tileDot (X : (⟨2, ![8192, 2048]⟩ : Shape).Idx → EReal) (Wt : (⟨2, ![n, 2048]⟩ : Shape).Idx → EReal)
    (r : Fin 8192) (o : Fin n) (k : ℕ) : EReal :=
  ∑ e : Fin 512, X (ix2 r (colN k e)) * Wt (ix2 o (colN k e))

/-- The contraction over the first `k` tiles: what an accumulator holds after `k` steps from zero. -/
def partRow (X : (⟨2, ![8192, 2048]⟩ : Shape).Idx → EReal) (Wt : (⟨2, ![n, 2048]⟩ : Shape).Idx → EReal)
    (r : Fin 8192) (o : Fin n) (k : ℕ) : EReal :=
  ∑ t ∈ Finset.range k, tileDot X Wt r o t

theorem partRow_one (X : (⟨2, ![8192, 2048]⟩ : Shape).Idx → EReal) (Wt : (⟨2, ![n, 2048]⟩ : Shape).Idx → EReal)
    (r : Fin 8192) (o : Fin n) : partRow X Wt r o 1 = 0 + tileDot X Wt r o 0 := by
  unfold partRow
  rw [Finset.sum_range_one, zero_add]

theorem partRow_succ (X : (⟨2, ![8192, 2048]⟩ : Shape).Idx → EReal) (Wt : (⟨2, ![n, 2048]⟩ : Shape).Idx → EReal)
    (r : Fin 8192) (o : Fin n) (k : ℕ) : partRow X Wt r o (k + 1) = partRow X Wt r o k + tileDot X Wt r o k :=
  Finset.sum_range_succ _ _

/-- After the four tiles the accumulator holds the whole contraction. -/
theorem partRow_four (X : (⟨2, ![8192, 2048]⟩ : Shape).Idx → EReal) (Wt : (⟨2, ![n, 2048]⟩ : Shape).Idx → EReal)
    (r : Fin 8192) (o : Fin n) : partRow X Wt r o 4 = dotRow X Wt r o :=
  sum_tiles (fun d => X (ix2 r d) * Wt (ix2 o d))

/-- Entry (r, o) of the result over the flattened rows. -/
def out2 (X : (⟨2, ![8192, 2048]⟩ : Shape).Idx → EReal) (W : (⟨2, ![2048, 2048]⟩ : Shape).Idx → EReal)
    (A : (⟨2, ![16, 2048]⟩ : Shape).Idx → EReal) (B : (⟨2, ![2048, 16]⟩ : Shape).Idx → EReal)
    (bias : (⟨2, ![1, 2048]⟩ : Shape).Idx → EReal) (r : Fin 8192) (o : Fin 2048) : EReal :=
  (dotRow X W r o + bias (ix2 (0 : Fin 1) o)) + (∑ j : Fin 16, dotRow X A r j * B (ix2 o j)) * two

/-- Entry (b, s, o) of the result over [4, 2048, 2048], from the arguments as given. -/
def out3 (x : (⟨3, ![4, 2048, 2048]⟩ : Shape).Idx → EReal) (W : (⟨2, ![2048, 2048]⟩ : Shape).Idx → EReal)
    (b : (⟨1, ![2048]⟩ : Shape).Idx → EReal) (A : (⟨2, ![16, 2048]⟩ : Shape).Idx → EReal)
    (B : (⟨2, ![2048, 16]⟩ : Shape).Idx → EReal) (bb : Fin 4) (s : Fin 2048) (o : Fin 2048) : EReal :=
  ((∑ d : Fin 2048, x (ix3 bb s d) * W (ix2 o d)) + b (ix1 o))
    + (∑ j : Fin 16, (∑ d : Fin 2048, x (ix3 bb s d) * A (ix2 j d)) * B (ix2 o j)) * two

/-- The result as one array over [4, 2048, 2048]. -/
def result (x : (⟨3, ![4, 2048, 2048]⟩ : Shape).Idx → EReal) (W : (⟨2, ![2048, 2048]⟩ : Shape).Idx → EReal)
    (b : (⟨1, ![2048]⟩ : Shape).Idx → EReal) (A : (⟨2, ![16, 2048]⟩ : Shape).Idx → EReal)
    (B : (⟨2, ![2048, 16]⟩ : Shape).Idx → EReal) : (⟨3, ![4, 2048, 2048]⟩ : Shape).Idx → EReal :=
  fun i => out3 x W b A B (i 0) (i 1) (i 2)

theorem result_apply (x : (⟨3, ![4, 2048, 2048]⟩ : Shape).Idx → EReal) (W : (⟨2, ![2048, 2048]⟩ : Shape).Idx → EReal)
    (b : (⟨1, ![2048]⟩ : Shape).Idx → EReal) (A : (⟨2, ![16, 2048]⟩ : Shape).Idx → EReal)
    (B : (⟨2, ![2048, 16]⟩ : Shape).Idx → EReal) (bb : Fin 4) (s : Fin 2048) (o : Fin 2048) :
    result x W b A B (ix3 bb s o) = out3 x W b A B bb s o := rfl

/-- The flattened form is the [4, 2048, 2048] form when X is x with its two leading axes merged and the bias row is b. -/
theorem out2_eq_out3 (x : (⟨3, ![4, 2048, 2048]⟩ : Shape).Idx → EReal) (W : (⟨2, ![2048, 2048]⟩ : Shape).Idx → EReal)
    (b : (⟨1, ![2048]⟩ : Shape).Idx → EReal) (A : (⟨2, ![16, 2048]⟩ : Shape).Idx → EReal)
    (B : (⟨2, ![2048, 16]⟩ : Shape).Idx → EReal)
    (X : (⟨2, ![8192, 2048]⟩ : Shape).Idx → EReal) (bias : (⟨2, ![1, 2048]⟩ : Shape).Idx → EReal)
    (bb : Fin 4) (s : Fin 2048) (o : Fin 2048) (r : Fin 8192)
    (hX : ∀ d : Fin 2048, X (ix2 r d) = x (ix3 bb s d)) (hb : bias (ix2 (0 : Fin 1) o) = b (ix1 o)) :
    out2 X W A B bias r o = out3 x W b A B bb s o := by
  unfold out2 out3 dotRow
  simp only [hX, hb]

end Cert.LoraSpec

end
-- ==== Proof.Blocks.lean ====
/-
  Where each window's block sits in its array.

  The grid is 8 × 2 × 4: point t stands for row block i = t / 8 of the flattened activations, column block
  j = (t / 4) % 2 of the output features, and K-tile k = t % 4.  The x window reads rows 1024·i … and columns
  512·k …; the W window rows 1024·j … and the same columns; the A window all 16 rows and those columns; the B window
  rows 1024·j … and all 16 columns; the bias window its one row and columns 1024·j …; the output window rows 1024·i …
  and columns 1024·j ….  A block's entry (p, e) is the array's entry at (block index · block extent + p, …): the
  index maps are decided once over the 64 points and the rest is arithmetic.
-/
import proofs.«146744_j8555574854313_1_alg».proof.Proof.Gen.KernelIdeal.Frame
import proofs.«146744_j8555574854313_1_alg».proof.Proof.Spec
import Idealize.ShloMosaic.Lib.Pipeline.Value
import Idealize.ShloMosaic.Lib.ValueIdx

noncomputable section

open Idealize.ShloMosaic Idealize.ShloMosaic.TcCoe Idealize.SL.Sem Idealize.ShloMosaic.ValueIdx

namespace Cert.KernelIdeal.Blocks

open Cert.KernelIdeal Cert.KernelIdeal.Gen Cert.LoraSpec

variable {F : FTy → Type} [FloatOps F]
variable (m : (ℓ : Loc nD τ sig) → Buf (Elt F) ℓ)

/-- The arrays as the region finds them, at their literal shapes. -/
abbrev Xarr (c : Dev nD) : Vec F S8192x2048 .f32 := V m c main_v0
abbrev Warr (c : Dev nD) : Vec F S2048x2048 .f32 := V m c main_arg1
abbrev Aarr (c : Dev nD) : Vec F S16x2048 .f32 := V m c main_arg3
abbrev Barr (c : Dev nD) : Vec F S2048x16 .f32 := V m c main_arg4
abbrev biasArr (c : Dev nD) : Vec F S1x2048 .f32 := V m c main_v1

/-- The input blocks at a point, at their literal shapes. -/
abbrev xblk (c : Dev nD) (t : Fin cfg0.N) : Vec F S1024x512 .f32 := iblk m c 0 t
abbrev wblk (c : Dev nD) (t : Fin cfg0.N) : Vec F S1024x512 .f32 := iblk m c 1 t
abbrev ablk (c : Dev nD) (t : Fin cfg0.N) : Vec F S16x512 .f32 := iblk m c 2 t
abbrev bblk (c : Dev nD) (t : Fin cfg0.N) : Vec F S1024x16 .f32 := iblk m c 3 t
abbrev biasblk (c : Dev nD) (t : Fin cfg0.N) : Vec F S1x1024 .f32 := iblk m c 4 t

/-- The block indices at point t, axis by axis, decided over the 64 points. -/
theorem idx_x : ∀ t : Fin cfg0.N, win0_0.index t (0 : Fin 2) = t.val / 8 ∧ win0_0.index t (1 : Fin 2) = t.val % 4 :=
  (by decide +kernel : ∀ t : Fin grid0.N, win0_0.index t (0 : Fin 2) = t.val / 8 ∧ win0_0.index t (1 : Fin 2) = t.val % 4)
theorem idx_w : ∀ t : Fin cfg0.N, win0_1.index t (0 : Fin 2) = t.val / 4 % 2 ∧ win0_1.index t (1 : Fin 2) = t.val % 4 :=
  (by decide +kernel : ∀ t : Fin grid0.N, win0_1.index t (0 : Fin 2) = t.val / 4 % 2 ∧ win0_1.index t (1 : Fin 2) = t.val % 4)
theorem idx_a : ∀ t : Fin cfg0.N, win0_2.index t (0 : Fin 2) = 0 ∧ win0_2.index t (1 : Fin 2) = t.val % 4 :=
  (by decide +kernel : ∀ t : Fin grid0.N, win0_2.index t (0 : Fin 2) = 0 ∧ win0_2.index t (1 : Fin 2) = t.val % 4)
theorem idx_b : ∀ t : Fin cfg0.N, win0_3.index t (0 : Fin 2) = t.val / 4 % 2 ∧ win0_3.index t (1 : Fin 2) = 0 :=
  (by decide +kernel : ∀ t : Fin grid0.N, win0_3.index t (0 : Fin 2) = t.val / 4 % 2 ∧ win0_3.index t (1 : Fin 2) = 0)
theorem idx_bias : ∀ t : Fin cfg0.N, win0_4.index t (0 : Fin 2) = 0 ∧ win0_4.index t (1 : Fin 2) = t.val / 4 % 2 :=
  (by decide +kernel : ∀ t : Fin grid0.N, win0_4.index t (0 : Fin 2) = 0 ∧ win0_4.index t (1 : Fin 2) = t.val / 4 % 2)
theorem idx_o : ∀ t : Fin cfg0.N, win0_5.index t (0 : Fin 2) = t.val / 8 ∧ win0_5.index t (1 : Fin 2) = t.val / 4 % 2 :=
  (by decide +kernel : ∀ t : Fin grid0.N, win0_5.index t (0 : Fin 2) = t.val / 8 ∧ win0_5.index t (1 : Fin 2) = t.val / 4 % 2)

theorem lt64 (t : Fin cfg0.N) : t.val < 64 := lt_of_lt_of_eq t.isLt (show cfg0.N = 64 from N_0)

/-- Entry (p, e) of the x block at point t. -/
theorem xblk_apply (c : Dev nD) (t : Fin cfg0.N) (p : Fin 1024) (e : Fin 512) :
    xblk m c t (ix2 p e) = Xarr m c (ix2 (rowN 8192 (t.val / 8) p) (colN (t.val % 4) e)) := by
  have hN := lt64 t
  have hi := idx_x t
  have hp := p.isLt
  have he := e.isLt
  show iblk m c 0 t (ix2 p e) = V m c main_v0 _
  unfold iblk
  rw [View.read_apply]
  show V m c main_v0 _ = V m c main_v0 _
  congr 1
  funext a
  apply Fin.ext
  match a with
  | ⟨0, _⟩ => show win0_0.index t 0 * 1024 + 1 * p.val = (1024 * (t.val / 8) + p.val) % 8192; rw [hi.1]; omega
  | ⟨1, _⟩ => show win0_0.index t 1 * 512 + 1 * e.val = (512 * (t.val % 4) + e.val) % 2048; rw [hi.2]; omega

/-- Entry (q, e) of the W block at point t. -/
theorem wblk_apply (c : Dev nD) (t : Fin cfg0.N) (q : Fin 1024) (e : Fin 512) :
    wblk m c t (ix2 q e) = Warr m c (ix2 (rowN 2048 (t.val / 4 % 2) q) (colN (t.val % 4) e)) := by
  have hN := lt64 t
  have hi := idx_w t
  have hq := q.isLt
  have he := e.isLt
  show iblk m c 1 t (ix2 q e) = V m c main_arg1 _
  unfold iblk
  rw [View.read_apply]
  show V m c main_arg1 _ = V m c main_arg1 _
  congr 1
  funext a
  apply Fin.ext
  match a with
  | ⟨0, _⟩ => show win0_1.index t 0 * 1024 + 1 * q.val = (1024 * (t.val / 4 % 2) + q.val) % 2048; rw [hi.1]; omega
  | ⟨1, _⟩ => show win0_1.index t 1 * 512 + 1 * e.val = (512 * (t.val % 4) + e.val) % 2048; rw [hi.2]; omega

/-- Entry (j, e) of the A block at point t. -/
theorem ablk_apply (c : Dev nD) (t : Fin cfg0.N) (j : Fin 16) (e : Fin 512) :
    ablk m c t (ix2 j e) = Aarr m c (ix2 j (colN (t.val % 4) e)) := by
  have hN := lt64 t
  have hi := idx_a t
  have hj := j.isLt
  have he := e.isLt
  show iblk m c 2 t (ix2 j e) = V m c main_arg3 _
  unfold iblk
  rw [View.read_apply]
  show V m c main_arg3 _ = V m c main_arg3 _
  congr 1
  funext a
  apply Fin.ext
  match a with
  | ⟨0, _⟩ => show win0_2.index t 0 * 16 + 1 * j.val = j.val; rw [hi.1]; omega
  | ⟨1, _⟩ => show win0_2.index t 1 * 512 + 1 * e.val = (512 * (t.val % 4) + e.val) % 2048; rw [hi.2]; omega

/-- Entry (q, j) of the B block at point t. -/
theorem bblk_apply (c : Dev nD) (t : Fin cfg0.N) (q : Fin 1024) (j : Fin 16) :
    bblk m c t (ix2 q j) = Barr m c (ix2 (rowN 2048 (t.val / 4 % 2) q) j) := by
  have hN := lt64 t
  have hi := idx_b t
  have hq := q.isLt
  have hj := j.isLt
  show iblk m c 3 t (ix2 q j) = V m c main_arg4 _
  unfold iblk
  rw [View.read_apply]
  show V m c main_arg4 _ = V m c main_arg4 _
  congr 1
  funext a
  apply Fin.ext
  match a with
  | ⟨0, _⟩ => show win0_3.index t 0 * 1024 + 1 * q.val = (1024 * (t.val / 4 % 2) + q.val) % 2048; rw [hi.1]; omega
  | ⟨1, _⟩ => show win0_3.index t 1 * 16 + 1 * j.val = j.val; rw [hi.2]; omega

/-- Entry (0, q) of the bias block at point t. -/
theorem biasblk_apply (c : Dev nD) (t : Fin cfg0.N) (q : Fin 1024) :
    biasblk m c t (ix2 (0 : Fin 1) q) = biasArr m c (ix2 (0 : Fin 1) (rowN 2048 (t.val / 4 % 2) q)) := by
  have hN := lt64 t
  have hi := idx_bias t
  have hq := q.isLt
  show iblk m c 4 t (ix2 (0 : Fin 1) q) = V m c main_v1 _
  unfold iblk
  rw [View.read_apply]
  show V m c main_v1 _ = V m c main_v1 _
  congr 1
  funext a
  apply Fin.ext
  match a with
  | ⟨0, _⟩ => show win0_4.index t 0 * 1 + 1 * 0 = 0; rw [hi.1]
  | ⟨1, _⟩ => show win0_4.index t 1 * 1024 + 1 * q.val = (1024 * (t.val / 4 % 2) + q.val) % 2048; rw [hi.2]; omega

/-- Entry (p, q) of the output block at point t sits at row 1024·i + p, column 1024·j + q of the result. -/
theorem oblk_emb (t : Fin cfg0.N) (p q : Fin 1024) :
    ((cfg0.win 5).blk t).view.emb (ix2 p q) = (ix2 (rowN 8192 (t.val / 8) p) (rowN 2048 (t.val / 4 % 2) q) : S8192x2048.Idx) := by
  have hN := lt64 t
  have hi := idx_o t
  have hp := p.isLt
  have hq := q.isLt
  funext a
  apply Fin.ext
  match a with
  | ⟨0, _⟩ => show win0_5.index t 0 * 1024 + 1 * p.val = (1024 * (t.val / 8) + p.val) % 8192; rw [hi.1]; omega
  | ⟨1, _⟩ => show win0_5.index t 1 * 1024 + 1 * q.val = (1024 * (t.val / 4 % 2) + q.val) % 2048; rw [hi.2]; omega

/-- An index of the result is in point t's output block iff each coordinate is in the block's range. -/
theorem mem_oblk (t : Fin cfg0.N) (i : S8192x2048.Idx) :
    i ∈ ((cfg0.win 5).blk t).view.set ↔ ∀ a : Fin 2, win0_5.index t a * S1024x1024.size a ≤ (i a).val ∧ (i a).val < win0_5.index t a * S1024x1024.size a + S1024x1024.size a := by
  show i ∈ ((View.whole main_v2).slice (win0_5.rect t)).set ↔ _
  rw [View.set_slice_whole, Rect.mem_set_unit]
  exact Iff.rfl

/-- Every index (r, o) of the result lies in the output block of the last K-tile's point of its row and column block. -/
theorem covered (i : S8192x2048.Idx) :
    ∃ t : Fin cfg0.N, (cfg0.win 5).flush t = true ∧ i ∈ ((cfg0.win 5).blk t).view.set := by
  have h0 : (i 0).val < 8192 := (i 0).isLt
  have h1 : (i 1).val < 2048 := (i 1).isLt
  have hN : cfg0.N = 64 := N_0
  let t : Fin cfg0.N := ⟨((i 0).val / 1024 * 2 + (i 1).val / 1024) * 4 + 3, by rw [hN]; omega⟩
  have htv : t.val = ((i 0).val / 1024 * 2 + (i 1).val / 1024) * 4 + 3 := rfl
  have hi := idx_o t
  refine ⟨t, (flush0_5 t).mpr (by rw [htv]; omega), ?_⟩
  rw [mem_oblk]
  intro a
  match a with
  | ⟨0, _⟩ => show win0_5.index t (0 : Fin 2) * 1024 ≤ (i 0).val ∧ (i 0).val < win0_5.index t (0 : Fin 2) * 1024 + 1024; rw [hi.1, htv]; omega
  | ⟨1, _⟩ => show win0_5.index t (1 : Fin 2) * 1024 ≤ (i 1).val ∧ (i 1).val < win0_5.index t (1 : Fin 2) * 1024 + 1024; rw [hi.2, htv]; omega

end Cert.KernelIdeal.Blocks

end
-- ==== Proof.Payload.lean ====
import proofs.«146744_j8555574854313_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

/-!
# The kernel body's arithmetic read at one index, over the extended reals

The body of the K-tiled linear layer with a low-rank correction computes, per grid step, six values from the blocks it
has loaded. Read at one output index at the ideal values (the extended reals, where a change of float format is the
identity and a matrix product is an exact sum) they are:

* the two zero blocks that initialise the accumulators;
* `acc + x · Wᵀ`: the wide accumulator plus the product of the `x` tile with the `W` tile, both contracted along their
  second axis (512 terms);
* `low + x · Aᵀ`: the low-rank accumulator plus the product of the `x` tile with the `A` tile (512 terms);
* `(acc + bias) + (low · Bᵀ) * 2`: the finished wide accumulator plus the bias row, plus the low-rank product (16 terms)
  scaled by the constant whose word is `0x40000000`.

Each matrix product contracts the operands' second axes, so at output index `(p, q)` the left operand is read along its
row `p` and the right operand along its row `q`.
-/

noncomputable section

namespace Cert.KernelIdeal.Pay

open Cert.KernelIdeal Cert.KernelIdeal.Gen Idealize.ShloMosaic Idealize.ShloMosaic.ValueIdx
open scoped BigOperators

/-! ## The zero blocks -/

/-- The wide accumulator's initial block is zero everywhere. -/
theorem pay1_apply (p q : Fin 1024) : (k0_pay1 (F := Ideal)) (ix2 p q) = 0 := by
  unfold k0_pay1
  refine (congrFun (shapeCast_self _ _) (ix2 p q)).trans ?_
  exact Ideal.ofBits_zero_f32

/-- The low-rank accumulator's initial block is zero everywhere. -/
theorem pay2_apply (p : Fin 1024) (j : Fin 16) : (k0_pay2 (F := Ideal)) (ix2 p j) = 0 := by
  unfold k0_pay2
  refine (congrFun (shapeCast_self _ _) (ix2 p j)).trans ?_
  exact Ideal.ofBits_zero_f32

/-! ## The product of the `x` tile with the `W` tile: `[1024,512] × [1024,512]ᵀ → [1024,1024]`

The operand indices of the contraction at output index `i` and contraction position `k`: the left operand is read at
`(i 0, k)`, the right one at `(i 1, k)`. One lemma per operand axis. -/

theorem lhs_xw_0 (i : S1024x1024.Idx) (k : dot_S1024x512_S1024x512_S1024x1024_1_1_0_0_n_n.contr.Idx) :
    (dot_S1024x512_S1024x512_S1024x1024_1_1_0_0_n_n.lhsIdx i k 0).val = (i 0).val := by
  unfold DotDims.lhsIdx
  rw [dif_neg (show ¬(0 : Fin S1024x512.rank) ∈ dot_S1024x512_S1024x512_S1024x1024_1_1_0_0_n_n.lhsBatch by decide),
    dif_pos (show (0 : Fin S1024x512.rank) ∈ dot_S1024x512_S1024x512_S1024x1024_1_1_0_0_n_n.lhsNonContracting by decide)]
  rfl
theorem lhs_xw_1 (i : S1024x1024.Idx) (k : dot_S1024x512_S1024x512_S1024x1024_1_1_0_0_n_n.contr.Idx) :
    (dot_S1024x512_S1024x512_S1024x1024_1_1_0_0_n_n.lhsIdx i k 1).val = (k ⟨0, by decide⟩).val :=
  dot_S1024x512_S1024x512_S1024x1024_1_1_0_0_n_n.lhsIdx_val_of_single rfl i k
theorem rhs_xw_0 (i : S1024x1024.Idx) (k : dot_S1024x512_S1024x512_S1024x1024_1_1_0_0_n_n.contr.Idx) :
    (dot_S1024x512_S1024x512_S1024x1024_1_1_0_0_n_n.rhsIdx i k 0).val = (i 1).val := by
  unfold DotDims.rhsIdx
  rw [dif_neg (show ¬(0 : Fin S1024x512.rank) ∈ dot_S1024x512_S1024x512_S1024x1024_1_1_0_0_n_n.rhsBatch by decide),
    dif_pos (show (0 : Fin S1024x512.rank) ∈ dot_S1024x512_S1024x512_S1024x1024_1_1_0_0_n_n.rhsNonContracting by decide)]
  rfl
theorem rhs_xw_1 (i : S1024x1024.Idx) (k : dot_S1024x512_S1024x512_S1024x1024_1_1_0_0_n_n.contr.Idx) :
    (dot_S1024x512_S1024x512_S1024x1024_1_1_0_0_n_n.rhsIdx i k 1).val = (k ⟨0, by decide⟩).val :=
  dot_S1024x512_S1024x512_S1024x1024_1_1_0_0_n_n.rhsIdx_val_of_single rfl i k

/-- The product into the zero accumulator, at `(p, q)`: row `p` of the left operand against row `q` of the right. -/
theorem matmul_xw_apply (a b : FVec Ideal S1024x512 .bf16) (p q : Fin 1024) :
    matmul (F := Ideal) dot_S1024x512_S1024x512_S1024x1024_1_1_0_0_n_n none a b
        (constant (F := Ideal) S1024x1024 .f32 0x00000000#32) (ix2 p q)
      = ∑ e : Fin 512, a (ix2 p e) * b (ix2 q e) := by
  refine (Ideal.matmul_constant_zero_apply dot_S1024x512_S1024x512_S1024x1024_1_1_0_0_n_n none a b (ix2 p q)).trans ?_
  rw [← Equiv.sum_comp (contrEquiv1 dot_S1024x512_S1024x512_S1024x1024_1_1_0_0_n_n 512 rfl rfl).symm]
  refine Finset.sum_congr rfl fun e _ => ?_
  have he := contrEquiv1_symm_val dot_S1024x512_S1024x512_S1024x1024_1_1_0_0_n_n 512 rfl rfl e
  have el : dot_S1024x512_S1024x512_S1024x1024_1_1_0_0_n_n.lhsIdx (ix2 p q)
      ((contrEquiv1 dot_S1024x512_S1024x512_S1024x1024_1_1_0_0_n_n 512 rfl rfl).symm e) = ix2 p e :=
    funext fun ax => Fin.ext (by
      match ax with
      | ⟨0, _⟩ => exact lhs_xw_0 _ _
      | ⟨1, _⟩ => exact (lhs_xw_1 _ _).trans he)
  have er : dot_S1024x512_S1024x512_S1024x1024_1_1_0_0_n_n.rhsIdx (ix2 p q)
      ((contrEquiv1 dot_S1024x512_S1024x512_S1024x1024_1_1_0_0_n_n 512 rfl rfl).symm e) = ix2 q e :=
    funext fun ax => Fin.ext (by
      match ax with
      | ⟨0, _⟩ => exact rhs_xw_0 _ _
      | ⟨1, _⟩ => exact (rhs_xw_1 _ _).trans he)
  rw [el, er]

/-! ## The product of the `x` tile with the `A` tile: `[1024,512] × [16,512]ᵀ → [1024,16]`

At output index `i` and contraction position `k` the left operand is read at `(i 0, k)`, the right one at `(i 1, k)`. -/

theorem lhs_xa_0 (i : S1024x16.Idx) (k : dot_S1024x512_S16x512_S1024x16_1_1_0_0_n_n.contr.Idx) :
    (dot_S1024x512_S16x512_S1024x16_1_1_0_0_n_n.lhsIdx i k 0).val = (i 0).val := by
  unfold DotDims.lhsIdx
  rw [dif_neg (show ¬(0 : Fin S1024x512.rank) ∈ dot_S1024x512_S16x512_S1024x16_1_1_0_0_n_n.lhsBatch by decide),
    dif_pos (show (0 : Fin S1024x512.rank) ∈ dot_S1024x512_S16x512_S1024x16_1_1_0_0_n_n.lhsNonContracting by decide)]
  rfl
theorem lhs_xa_1 (i : S1024x16.Idx) (k : dot_S1024x512_S16x512_S1024x16_1_1_0_0_n_n.contr.Idx) :
    (dot_S1024x512_S16x512_S1024x16_1_1_0_0_n_n.lhsIdx i k 1).val = (k ⟨0, by decide⟩).val :=
  dot_S1024x512_S16x512_S1024x16_1_1_0_0_n_n.lhsIdx_val_of_single rfl i k
theorem rhs_xa_0 (i : S1024x16.Idx) (k : dot_S1024x512_S16x512_S1024x16_1_1_0_0_n_n.contr.Idx) :
    (dot_S1024x512_S16x512_S1024x16_1_1_0_0_n_n.rhsIdx i k 0).val = (i 1).val := by
  unfold DotDims.rhsIdx
  rw [dif_neg (show ¬(0 : Fin S16x512.rank) ∈ dot_S1024x512_S16x512_S1024x16_1_1_0_0_n_n.rhsBatch by decide),
    dif_pos (show (0 : Fin S16x512.rank) ∈ dot_S1024x512_S16x512_S1024x16_1_1_0_0_n_n.rhsNonContracting by decide)]
  rfl
theorem rhs_xa_1 (i : S1024x16.Idx) (k : dot_S1024x512_S16x512_S1024x16_1_1_0_0_n_n.contr.Idx) :
    (dot_S1024x512_S16x512_S1024x16_1_1_0_0_n_n.rhsIdx i k 1).val = (k ⟨0, by decide⟩).val :=
  dot_S1024x512_S16x512_S1024x16_1_1_0_0_n_n.rhsIdx_val_of_single rfl i k

/-- The product into the zero accumulator, at `(p, q)`: row `p` of the left operand against row `q` of the right. -/
theorem matmul_xa_apply (a : FVec Ideal S1024x512 .bf16) (b : FVec Ideal S16x512 .bf16) (p : Fin 1024) (q : Fin 16) :
    matmul (F := Ideal) dot_S1024x512_S16x512_S1024x16_1_1_0_0_n_n none a b
        (constant (F := Ideal) S1024x16 .f32 0x00000000#32) (ix2 p q)
      = ∑ e : Fin 512, a (ix2 p e) * b (ix2 q e) := by
  refine (Ideal.matmul_constant_zero_apply dot_S1024x512_S16x512_S1024x16_1_1_0_0_n_n none a b (ix2 p q)).trans ?_
  rw [← Equiv.sum_comp (contrEquiv1 dot_S1024x512_S16x512_S1024x16_1_1_0_0_n_n 512 rfl rfl).symm]
  refine Finset.sum_congr rfl fun e _ => ?_
  have he := contrEquiv1_symm_val dot_S1024x512_S16x512_S1024x16_1_1_0_0_n_n 512 rfl rfl e
  have el : dot_S1024x512_S16x512_S1024x16_1_1_0_0_n_n.lhsIdx (ix2 p q)
      ((contrEquiv1 dot_S1024x512_S16x512_S1024x16_1_1_0_0_n_n 512 rfl rfl).symm e) = ix2 p e :=
    funext fun ax => Fin.ext (by
      match ax with
      | ⟨0, _⟩ => exact lhs_xa_0 _ _
      | ⟨1, _⟩ => exact (lhs_xa_1 _ _).trans he)
  have er : dot_S1024x512_S16x512_S1024x16_1_1_0_0_n_n.rhsIdx (ix2 p q)
      ((contrEquiv1 dot_S1024x512_S16x512_S1024x16_1_1_0_0_n_n 512 rfl rfl).symm e) = ix2 q e :=
    funext fun ax => Fin.ext (by
      match ax with
      | ⟨0, _⟩ => exact rhs_xa_0 _ _
      | ⟨1, _⟩ => exact (rhs_xa_1 _ _).trans he)
  rw [el, er]

/-! ## The product of the low-rank accumulator with the `B` tile: `[1024,16] × [1024,16]ᵀ → [1024,1024]`

At output index `i` and contraction position `k` the left operand is read at `(i 0, k)`, the right one at `(i 1, k)`. -/

theorem lhs_lb_0 (i : S1024x1024.Idx) (k : dot_S1024x16_S1024x16_S1024x1024_1_1_0_0_n_n.contr.Idx) :
    (dot_S1024x16_S1024x16_S1024x1024_1_1_0_0_n_n.lhsIdx i k 0).val = (i 0).val := by
  unfold DotDims.lhsIdx
  rw [dif_neg (show ¬(0 : Fin S1024x16.rank) ∈ dot_S1024x16_S1024x16_S1024x1024_1_1_0_0_n_n.lhsBatch by decide),
    dif_pos (show (0 : Fin S1024x16.rank) ∈ dot_S1024x16_S1024x16_S1024x1024_1_1_0_0_n_n.lhsNonContracting by decide)]
  rfl
theorem lhs_lb_1 (i : S1024x1024.Idx) (k : dot_S1024x16_S1024x16_S1024x1024_1_1_0_0_n_n.contr.Idx) :
    (dot_S1024x16_S1024x16_S1024x1024_1_1_0_0_n_n.lhsIdx i k 1).val = (k ⟨0, by decide⟩).val :=
  dot_S1024x16_S1024x16_S1024x1024_1_1_0_0_n_n.lhsIdx_val_of_single rfl i k
theorem rhs_lb_0 (i : S1024x1024.Idx) (k : dot_S1024x16_S1024x16_S1024x1024_1_1_0_0_n_n.contr.Idx) :
    (dot_S1024x16_S1024x16_S1024x1024_1_1_0_0_n_n.rhsIdx i k 0).val = (i 1).val := by
  unfold DotDims.rhsIdx
  rw [dif_neg (show ¬(0 : Fin S1024x16.rank) ∈ dot_S1024x16_S1024x16_S1024x1024_1_1_0_0_n_n.rhsBatch by decide),
    dif_pos (show (0 : Fin S1024x16.rank) ∈ dot_S1024x16_S1024x16_S1024x1024_1_1_0_0_n_n.rhsNonContracting by decide)]
  rfl
theorem rhs_lb_1 (i : S1024x1024.Idx) (k : dot_S1024x16_S1024x16_S1024x1024_1_1_0_0_n_n.contr.Idx) :
    (dot_S1024x16_S1024x16_S1024x1024_1_1_0_0_n_n.rhsIdx i k 1).val = (k ⟨0, by decide⟩).val :=
  dot_S1024x16_S1024x16_S1024x1024_1_1_0_0_n_n.rhsIdx_val_of_single rfl i k

/-- The product into the zero accumulator, at `(p, q)`: row `p` of the left operand against row `q` of the right. -/
theorem matmul_lb_apply (a : FVec Ideal S1024x16 .bf16) (b : FVec Ideal S1024x16 .bf16) (p : Fin 1024) (q : Fin 1024) :
    matmul (F := Ideal) dot_S1024x16_S1024x16_S1024x1024_1_1_0_0_n_n none a b
        (constant (F := Ideal) S1024x1024 .f32 0x00000000#32) (ix2 p q)
      = ∑ e : Fin 16, a (ix2 p e) * b (ix2 q e) := by
  refine (Ideal.matmul_constant_zero_apply dot_S1024x16_S1024x16_S1024x1024_1_1_0_0_n_n none a b (ix2 p q)).trans ?_
  rw [← Equiv.sum_comp (contrEquiv1 dot_S1024x16_S1024x16_S1024x1024_1_1_0_0_n_n 16 rfl rfl).symm]
  refine Finset.sum_congr rfl fun e _ => ?_
  have he := contrEquiv1_symm_val dot_S1024x16_S1024x16_S1024x1024_1_1_0_0_n_n 16 rfl rfl e
  have el : dot_S1024x16_S1024x16_S1024x1024_1_1_0_0_n_n.lhsIdx (ix2 p q)
      ((contrEquiv1 dot_S1024x16_S1024x16_S1024x1024_1_1_0_0_n_n 16 rfl rfl).symm e) = ix2 p e :=
    funext fun ax => Fin.ext (by
      match ax with
      | ⟨0, _⟩ => exact lhs_lb_0 _ _
      | ⟨1, _⟩ => exact (lhs_lb_1 _ _).trans he)
  have er : dot_S1024x16_S1024x16_S1024x1024_1_1_0_0_n_n.rhsIdx (ix2 p q)
      ((contrEquiv1 dot_S1024x16_S1024x16_S1024x1024_1_1_0_0_n_n 16 rfl rfl).symm e) = ix2 q e :=
    funext fun ax => Fin.ext (by
      match ax with
      | ⟨0, _⟩ => exact rhs_lb_0 _ _
      | ⟨1, _⟩ => exact (rhs_lb_1 _ _).trans he)
  rw [el, er]

/-! ## The three accumulating values

A narrowing to bf16 is the identity at the ideal values, and so is a shape cast to the same shape; what is left of each
value is the accumulator plus the exact product. -/

/-- The wide accumulator after one step: its old value plus row `p` of the `x` tile against row `q` of the `W` tile. -/
theorem pay4_apply (x0 x1 : Vec Ideal S1024x512 .f32) (acc : Vec Ideal S1024x1024 .f32) (p q : Fin 1024) :
    k0_pay4 (F := Ideal) x0 x1 acc (ix2 p q) = acc (ix2 p q) + ∑ e : Fin 512, x0 (ix2 p e) * x1 (ix2 q e) := by
  unfold k0_pay4 k0_pay3
  refine (congrFun (shapeCast_self _ _) (ix2 p q)).trans ?_
  refine (addf_apply _ _ _).trans ?_
  refine congrArg (acc (ix2 p q) + ·) ?_
  refine (matmul_xw_apply _ _ p q).trans ?_
  refine Finset.sum_congr rfl fun e _ => ?_
  refine congrArg₂ (· * ·) ?_ rfl
  refine (truncf_apply (ψ := .bf16) _ bitsLt_bf16_f32 _).trans ?_
  exact congrFun (shapeCast_self _ _) _

/-- The low-rank accumulator after one step: its old value plus row `p` of the `x` tile against row `j` of the `A` tile. -/
theorem pay5_apply (x0 : Vec Ideal S1024x512 .f32) (x2 : Vec Ideal S16x512 .f32) (low : Vec Ideal S1024x16 .f32)
    (p : Fin 1024) (j : Fin 16) :
    k0_pay5 (F := Ideal) x0 x2 low (ix2 p j) = low (ix2 p j) + ∑ e : Fin 512, x0 (ix2 p e) * x2 (ix2 j e) := by
  unfold k0_pay5 k0_pay3
  refine (congrFun (shapeCast_self _ _) (ix2 p j)).trans ?_
  refine (addf_apply _ _ _).trans ?_
  refine congrArg (low (ix2 p j) + ·) ?_
  refine (matmul_xa_apply _ _ p j).trans ?_
  refine Finset.sum_congr rfl fun e _ => ?_
  refine congrArg₂ (· * ·) ?_ rfl
  refine (truncf_apply (ψ := .bf16) _ bitsLt_bf16_f32 _).trans ?_
  exact congrFun (shapeCast_self _ _) _

/-- The output block at the last step: the wide accumulator plus the bias row (one row, read at column `q` for every
    row `p`), plus the low-rank product scaled by the constant whose word is `0x40000000`. -/
theorem pay6_apply (low lb : Vec Ideal S1024x16 .f32) (acc : Vec Ideal S1024x1024 .f32) (bias : Vec Ideal S1x1024 .f32)
    (p q : Fin 1024) :
    k0_pay6 (F := Ideal) low lb acc bias (ix2 p q)
      = (acc (ix2 p q) + bias (ix2 (0 : Fin 1) q))
        + (∑ j : Fin 16, low (ix2 p j) * lb (ix2 q j)) * Ideal.ofBits .f32 0x40000000#32 := by
  unfold k0_pay6
  refine (addf_apply _ _ _).trans ?_
  refine congrArg₂ (· + ·) ?_ ?_
  · refine (addf_apply _ _ _).trans ?_
    refine congrArg (acc (ix2 p q) + ·) ?_
    refine (broadcastTo_1b_ab_apply _ _ p q).trans ?_
    exact congrFun (shapeCast_self _ _) _
  · refine (mulf_apply _ _ _).trans ?_
    refine congrArg₂ (· * ·) ?_ rfl
    exact matmul_lb_apply _ _ p q

end Cert.KernelIdeal.Pay

end
-- ==== Proof.Invariant.lean ====
/-
  What the two accumulators hold after every grid point, and what the last K-tile's point writes out.

  Point t stands for row block i = t / 8, column block j = (t / 4) % 2 and K-tile k = t % 4.  By induction on the
  point: after point t, acc at (p, q) is the contraction of row 1024·i + p of X with row 1024·j + q of W over the
  first k + 1 tiles, and low at (p, r) is the contraction of that row of X with row r of A over the same tiles.  At
  k = 0 both start from the zero block (0 + the first tile); at k > 0 the tile is added to what the point before
  left, which belongs to the same (i, j) because k runs fastest.  At k = 3 the four tiles are the whole
  contraction, and the output block is (acc + bias) + (low · Bᵀ) · 2.
-/
import proofs.«146744_j8555574854313_1_alg».proof.Proof.Pieces
import proofs.«146744_j8555574854313_1_alg».proof.Proof.Blocks
import proofs.«146744_j8555574854313_1_alg».proof.Proof.Payload

noncomputable section

open Idealize.ShloMosaic Idealize.ShloMosaic.TcCoe Idealize.SL.Sem Idealize.ShloMosaic.ValueIdx

namespace Cert.KernelIdeal.Inv

open Cert.KernelIdeal Cert.KernelIdeal.Gen Cert.LoraSpec Cert.KernelIdeal.Blocks Cert.KernelIdeal.Pieces Cert.KernelIdeal.Pay

variable (m : (ℓ : Loc nD τ sig) → Buf (Elt Ideal) ℓ)

/-- One K-tile's product of the x block with the W block is that tile's part of the contraction. -/
theorem tile_acc (c : Dev nD) (t : Fin cfg0.N) (p q : Fin 1024) :
    ∑ e : Fin 512, xblk m c t (ix2 p e) * wblk m c t (ix2 q e)
      = tileDot (Xarr m c) (Warr m c) (rowN 8192 (t.val / 8) p) (rowN 2048 (t.val / 4 % 2) q) (t.val % 4) := by
  unfold tileDot
  exact Finset.sum_congr rfl fun e _ => by rw [xblk_apply, wblk_apply]

/-- One K-tile's product of the x block with the A block is that tile's part of the bottleneck contraction. -/
theorem tile_low (c : Dev nD) (t : Fin cfg0.N) (p : Fin 1024) (j : Fin 16) :
    ∑ e : Fin 512, xblk m c t (ix2 p e) * ablk m c t (ix2 j e)
      = tileDot (Xarr m c) (Aarr m c) (rowN 8192 (t.val / 8) p) j (t.val % 4) := by
  unfold tileDot
  exact Finset.sum_congr rfl fun e _ => by rw [xblk_apply, ablk_apply]

/-- The accumulators after point n hold the contractions over the first n % 4 + 1 tiles. -/
def AccOK (c : Dev nD) (n : ℕ) (h : n < cfg0.N) : Prop :=
  (∀ p q : Fin 1024, (outsAt0 m c n h).2.1 (ix2 p q)
      = partRow (Xarr m c) (Warr m c) (rowN 8192 (n / 8) p) (rowN 2048 (n / 4 % 2) q) (n % 4 + 1))
  ∧ (∀ (p : Fin 1024) (j : Fin 16), (outsAt0 m c n h).2.2 (ix2 p j)
      = partRow (Xarr m c) (Aarr m c) (rowN 8192 (n / 8) p) j (n % 4 + 1))

/-- Adding point t's tile to what the point before left in acc (t not a first tile). -/
theorem acc_step (c : Dev nD) (t : Fin cfg0.N) (h0 : ¬t.val % 4 = 0) (hlt : t.val - 1 < cfg0.N)
    (ih : AccOK m c (t.val - 1) hlt) (p q : Fin 1024) :
    k0_pay4 (F := Ideal) (xblk m c t) (wblk m c t) (outsAt0 m c (t.val - 1) hlt).2.1 (ix2 p q)
      = partRow (Xarr m c) (Warr m c) (rowN 8192 (t.val / 8) p) (rowN 2048 (t.val / 4 % 2) q) (t.val % 4 + 1) := by
  have e1 : (t.val - 1) / 8 = t.val / 8 := by omega
  have e2 : (t.val - 1) / 4 % 2 = t.val / 4 % 2 := by omega
  have e3 : (t.val - 1) % 4 + 1 = t.val % 4 := by omega
  rw [pay4_apply, ih.1 p q, tile_acc, e1, e2, e3, ← partRow_succ]

/-- Adding point t's tile to what the point before left in low (t not a first tile). -/
theorem low_step (c : Dev nD) (t : Fin cfg0.N) (h0 : ¬t.val % 4 = 0) (hlt : t.val - 1 < cfg0.N)
    (ih : AccOK m c (t.val - 1) hlt) (p : Fin 1024) (j : Fin 16) :
    k0_pay5 (F := Ideal) (xblk m c t) (ablk m c t) (outsAt0 m c (t.val - 1) hlt).2.2 (ix2 p j)
      = partRow (Xarr m c) (Aarr m c) (rowN 8192 (t.val / 8) p) j (t.val % 4 + 1) := by
  have e1 : (t.val - 1) / 8 = t.val / 8 := by omega
  have e3 : (t.val - 1) % 4 + 1 = t.val % 4 := by omega
  rw [pay5_apply, ih.2 p j, tile_low, e1, e3, ← partRow_succ]

/-- A first tile's point (case A): zero plus the tile. -/
theorem stepA (c : Dev nD) (t : Fin cfg0.N) (h0 : t.val % 4 = 0) (h1 : ¬t.val % 4 = 3) : AccOK m c t.val t.isLt := by
  unfold AccOK
  rw [outsAt0_A m c t h0 h1]
  dsimp only
  constructor
  · intro p q
    refine (congrFun (acc_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) _ _ (xblk m c t) (wblk m c t) (ablk m c t) (bblk m c t) (biasblk m c t)) (ix2 p q)).trans ?_
    rw [pay4_apply, pay1_apply, tile_acc, h0, Nat.zero_add, partRow_one]
  · intro p j
    refine (congrFun (low_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) _ _ (xblk m c t) (wblk m c t) (ablk m c t) (bblk m c t) (biasblk m c t)) (ix2 p j)).trans ?_
    rw [pay5_apply, pay2_apply, tile_low, h0, Nat.zero_add, partRow_one]

/-- A middle tile's point (case B): the tile over what the point before left. -/
theorem stepB (c : Dev nD) (t : Fin cfg0.N) (h0 : ¬t.val % 4 = 0) (h1 : ¬t.val % 4 = 3) (hlt : t.val - 1 < cfg0.N)
    (ih : AccOK m c (t.val - 1) hlt) : AccOK m c t.val t.isLt := by
  unfold AccOK
  rw [outsAt0_B m c t h0 h1]
  dsimp only
  constructor
  · intro p q
    refine (congrFun (acc_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) _ _ (xblk m c t) (wblk m c t) (ablk m c t) (bblk m c t) (biasblk m c t) (outsAt0 m c (t.val - 1) hlt).2.1 (outsAt0 m c (t.val - 1) hlt).2.2) (ix2 p q)).trans ?_
    exact acc_step m c t h0 hlt ih p q
  · intro p j
    refine (congrFun (low_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) _ _ (xblk m c t) (wblk m c t) (ablk m c t) (bblk m c t) (biasblk m c t) (outsAt0 m c (t.val - 1) hlt).2.1 (outsAt0 m c (t.val - 1) hlt).2.2) (ix2 p j)).trans ?_
    exact low_step m c t h0 hlt ih p j

/-- The last tile's point (case C): the same for the accumulators. -/
theorem stepC (c : Dev nD) (t : Fin cfg0.N) (h0 : ¬t.val % 4 = 0) (h1 : t.val % 4 = 3) (hlt : t.val - 1 < cfg0.N)
    (ih : AccOK m c (t.val - 1) hlt) : AccOK m c t.val t.isLt := by
  unfold AccOK
  rw [outsAt0_C m c t h0 h1]
  dsimp only
  constructor
  · intro p q
    refine (congrFun (acc_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) _ _ (xblk m c t) (wblk m c t) (ablk m c t) (bblk m c t) (biasblk m c t) (outsAt0 m c (t.val - 1) hlt).2.1 (outsAt0 m c (t.val - 1) hlt).2.2) (ix2 p q)).trans ?_
    exact acc_step m c t h0 hlt ih p q
  · intro p j
    refine (congrFun (low_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) _ _ (xblk m c t) (wblk m c t) (ablk m c t) (bblk m c t) (biasblk m c t) (outsAt0 m c (t.val - 1) hlt).2.1 (outsAt0 m c (t.val - 1) hlt).2.2) (ix2 p j)).trans ?_
    exact low_step m c t h0 hlt ih p j

/-- The invariant at every point, by induction on the point. -/
theorem inv (c : Dev nD) : ∀ (n : ℕ) (h : n < cfg0.N), AccOK m c n h := by
  intro n
  induction n with
  | zero =>
    intro h
    exact stepA m c ⟨0, h⟩ rfl (by dsimp only; omega)
  | succ n ih =>
    intro h
    have hlt : n < cfg0.N := Nat.lt_of_succ_lt h
    by_cases h0 : (n + 1) % 4 = 0
    · exact stepA m c ⟨n + 1, h⟩ h0 (by dsimp only; omega)
    · by_cases h1 : (n + 1) % 4 = 3
      · exact stepC m c ⟨n + 1, h⟩ h0 h1 hlt (ih hlt)
      · exact stepB m c ⟨n + 1, h⟩ h0 h1 hlt (ih hlt)

/-- What the last tile's point writes into the output block: entry (p, q) is the whole result at row 1024·i + p,
    column 1024·j + q. -/
theorem out_at (c : Dev nD) (t : Fin cfg0.N) (h0 : ¬t.val % 4 = 0) (h1 : t.val % 4 = 3) (p q : Fin 1024) :
    (outsAt0 m c t.val t.isLt).1 (ix2 p q)
      = out2 (Xarr m c) (Warr m c) (Aarr m c) (Barr m c) (biasArr m c) (rowN 8192 (t.val / 8) p) (rowN 2048 (t.val / 4 % 2) q) := by
  have hN := lt64 t
  have hlt : t.val - 1 < cfg0.N := Nat.lt_of_le_of_lt (Nat.sub_le _ _) t.isLt
  have ih := inv m c (t.val - 1) hlt
  rw [outsAt0_C m c t h0 h1]
  dsimp only
  refine (congrFun (out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) _ _ (xblk m c t) (wblk m c t) (ablk m c t) (bblk m c t) (biasblk m c t) (outsAt0 m c (t.val - 1) hlt).2.1 (outsAt0 m c (t.val - 1) hlt).2.2) (ix2 p q)).trans ?_
  rw [pay6_apply, acc_step m c t h0 hlt ih p q, biasblk_apply]
  rw [Finset.sum_congr rfl fun j _ => by rw [low_step m c t h0 hlt ih p j, bblk_apply]]
  rw [h1]
  unfold out2
  simp only [Nat.reduceAdd, partRow_four]

end Cert.KernelIdeal.Inv

end
-- ==== Proof.Arrays.lean ====
/-
  The arrays the region finds, in terms of the arguments.

  Two host operations run before the region: the activations [4, 2048, 2048] are reshaped to [8192, 2048] (row
  2048·b + s holds (b, s)), and the bias [2048] is reshaped to one row [1, 2048].  W, A and B reach the region as
  given.  One host operation runs after it: the result [8192, 2048] is reshaped back to [4, 2048, 2048].
-/
import proofs.«146744_j8555574854313_1_alg».proof.Proof.Blocks
import Idealize.ShloMosaic.Lib.StableHlo.Run
import Idealize.ShloMosaic.Lib.ValueLayout

noncomputable section

open Idealize.ShloMosaic Idealize.ShloMosaic.TcCoe Idealize.SL.Sem Idealize.ShloMosaic.ValueIdx

namespace Cert.KernelIdeal.Arrays

open Cert.KernelIdeal Cert.KernelIdeal.Gen Cert.LoraSpec Cert.KernelIdeal.Blocks

variable {F : FTy → Type} [FloatOps F]
variable (m : (ℓ : Loc nD τ sig) → Buf (Elt F) ℓ)

/-- The flattened activations are the argument with its two leading axes merged. -/
theorem Xarr_eq (c : Dev nD) :
    Xarr m c = shapeCast S8192x2048 (m ((c : Thread nD τ).loc main_arg0)) shapeCasts_S4x2048x2048_S8192x2048 := by
  show StableHlo.after hostOps0 (fun b => m (c, b)) (Proc.devRef .tc main_v0) = _
  after_results
  rfl

/-- Row 2048·b + s of the flattened activations is (b, s) of the argument. -/
theorem Xarr_apply (c : Dev nD) (bb : Fin 4) (s d : Fin 2048) (r : Fin 8192) (hr : r.val = 2048 * bb.val + s.val) :
    Xarr m c (ix2 r d) = m ((c : Thread nD τ).loc main_arg0) (ix3 bb s d) := by
  rw [Xarr_eq]
  refine shapeCast_apply _ _ (ix2 r d) (ix3 bb s d) ?_
  rw [Shape.rowMajor_val_three, Shape.rowMajor_val_two]
  show (bb.val * 2048 + s.val) * 2048 + d.val = r.val * 2048 + d.val
  rw [hr]
  ring

/-- The bias row is the bias argument under a leading unit axis. -/
theorem biasArr_eq (c : Dev nD) :
    biasArr m c = shapeCast S1x2048 (m ((c : Thread nD τ).loc main_arg2)) shapeCasts_S2048_S1x2048 := by
  show StableHlo.after hostOps0 (fun b => m (c, b)) (Proc.devRef .tc main_v1) = _
  after_results
  rfl

theorem biasArr_apply (c : Dev nD) (o : Fin 2048) :
    biasArr m c (ix2 (0 : Fin 1) o) = m ((c : Thread nD τ).loc main_arg2) (ix1 o) := by
  rw [biasArr_eq]
  exact shapeCast_a_1a_apply _ _ (0 : Fin 1) o

theorem Warr_eq (c : Dev nD) : Warr m c = m ((c : Thread nD τ).loc main_arg1) := V_main_arg1 m c
theorem Aarr_eq (c : Dev nD) : Aarr m c = m ((c : Thread nD τ).loc main_arg3) := V_main_arg3 m c
theorem Barr_eq (c : Dev nD) : Barr m c = m ((c : Thread nD τ).loc main_arg4) := V_main_arg4 m c

end Cert.KernelIdeal.Arrays

end
-- ==== Proof.KValue.lean ====
/-
  The idealized kernel's run, read as values: its result array ends at the specification's array.

  Every index (r, o) of the region's [8192, 2048] result lies in the output block that the last K-tile's point of
  its row block and column block writes back, and that block holds the whole result there; so the region's array
  ends at the flattened result, and the host's reshape after the region lays it out over [4, 2048, 2048], where it
  is the specification's array of the five arguments.
-/
import proofs.«146744_j8555574854313_1_alg».proof.Proof.Invariant
import proofs.«146744_j8555574854313_1_alg».proof.Proof.Arrays

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.LoraSpec Cert.KernelIdeal.Blocks Cert.KernelIdeal.Arrays Cert.KernelIdeal.Inv

variable (m : (ℓ : Loc nD τ sig) → Buf (Elt Ideal) ℓ) (ρ : Dev nD → PrngReg)

/-- The region's result over the flattened rows, from the arrays the region finds. -/
def out2arr (c : Dev nD) : Vec Ideal S8192x2048 .f32 :=
  fun i => out2 (Xarr m c) (Warr m c) (Aarr m c) (Barr m c) (biasArr m c) (i 0) (i 1)

/-- What a last-tile point writes back is its block of the flattened result. -/
theorem flushed_eq (c : Dev nD) (t : Fin cfg0.N) (hf : (cfg0.win 5).flush t = true) :
    (dats m 0 c).flushed 5 t = ((cfg0.win 5).blk t).view.read (Elt Ideal) (out2arr m c) := by
  have h3 : t.val % 4 = 3 := (flush0_5 t).mp hf
  have h0 : ¬t.val % 4 = 0 := by omega
  show (cfg0.win 5).cut (grid0.coords t) ((dats m 0 c).after 5 t) = _
  rw [after0_5]
  funext y
  obtain ⟨p, q, rfl⟩ : ∃ (p q : Fin 1024), y = ix2 p q := ⟨y 0, y 1, eq_ix2 y⟩
  show (outsAt0 m c t.val t.isLt).1 (ix2 p q) = out2arr m c (((cfg0.win 5).blk t).view.emb (ix2 p q))
  rw [oblk_emb, out_at m c t h0 h3 p q]
  rfl

/-- The written-back blocks cover the array, so it ends at the flattened result. -/
theorem final_o (c : Dev nD) : (dats m 0 c).arrAt 5 cfg0.N = out2arr m c :=
  (dats m 0 c).arrAt_eq_of_cover 5 (out2arr m c) (flushed_eq m c) covered

/-- The host's reshape after the region reads that array. -/
theorem tail_eq (c : Dev nD) :
    Pipeline.afterTail₀ cfgs (dats m) 0 (V0 m) [hostOps1] c main_v3
      = shapeCast S4x2048x2048 (out2arr m c) shapeCasts_S8192x2048_S4x2048x2048 := by
  unfold Pipeline.afterTail₀
  show StableHlo.after hostOps1 _ (Proc.devRef .tc main_v3) = _
  after_results
  exact congrArg (fun a => shapeCast S4x2048x2048 a shapeCasts_S8192x2048_S4x2048x2048)
    ((Pipeline.withArrays_arr spec0 launch0.win.arr_inj c _ _ 5).trans (final_o m c))

/-- Laid out over [4, 2048, 2048], the flattened result is the specification's array of the arguments. -/
theorem result_eq (c : Dev nD) :
    shapeCast S4x2048x2048 (out2arr m c) shapeCasts_S8192x2048_S4x2048x2048
      = Cert.LoraSpec.result (m ((c : Thread nD τ).loc main_arg0)) (m ((c : Thread nD τ).loc main_arg1))
          (m ((c : Thread nD τ).loc main_arg2)) (m ((c : Thread nD τ).loc main_arg3)) (m ((c : Thread nD τ).loc main_arg4)) := by
  funext i
  obtain ⟨bb, s, o, rfl⟩ : ∃ (bb : Fin 4) (s o : Fin 2048), i = ix3 bb s o := ⟨i 0, i 1, i 2, eq_ix3 i⟩
  have hr : 2048 * bb.val + s.val < 8192 := by have := bb.isLt; have := s.isLt; omega
  rw [shapeCast_apply (out2arr m c) _ (ix3 bb s o) (ix2 (⟨2048 * bb.val + s.val, hr⟩ : Fin 8192) o) (by
    rw [Shape.rowMajor_val_three, Shape.rowMajor_val_two]
    show (2048 * bb.val + s.val) * 2048 + o.val = (bb.val * 2048 + s.val) * 2048 + o.val
    ring), result_apply]
  show out2 (Xarr m c) (Warr m c) (Aarr m c) (Barr m c) (biasArr m c) ⟨2048 * bb.val + s.val, hr⟩ o = _
  rw [Warr_eq, Aarr_eq, Barr_eq]
  exact out2_eq_out3 _ _ _ _ _ _ _ bb s o _ (fun d => Xarr_apply m c bb s d _ rfl) (biasArr_apply m c o)

/-- The run: every weakly fair execution ends with the result at the specification's array and the arguments unchanged. -/
theorem run : θ_run defs (onTc (τ := τ) (main (F := Ideal))) ⟨m, fun _ => 0, ρ⟩ fun r => ∀ c : Dev nD,
      r.2.mem ((c.tc : Thread nD τ).loc main_v3)
        = Cert.LoraSpec.result (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v3 (Pipeline.mem_restRefs_of main_v3 (by decide) (by decide))).trans ((tail_eq m c).trans (result_eq m c)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 2).trans (((dats m 0 c).arrAt_in 2 rfl _).trans ((A_eq m c 2).trans (V_main_arg3 m c))),
      ((h c).1 3).trans (((dats m 0 c).arrAt_in 3 rfl _).trans ((A_eq m c 3).trans (V_main_arg4 m c)))⟩)
    (run_main m ρ)

end Cert.KernelIdeal.KValue

end
-- ==== Proof.RefValue.lean ====
/-
  The reference's result, read index by index, is the specification's array.

  The reference computes  (x·Wᵀ + bias) + ((x·Aᵀ)·Bᵀ)·2  with three contractions, two broadcasts of the bias,
  a broadcast of the scalar 2, one product and two sums.  Each of these reads, at an output index (b, s, o), its
  operands at indices that are again built from b, s, o and the contracted column; once those indices are written
  with the literal-coordinate constructors, the value at (b, s, o) is, term for term, the specification's entry.
-/
import proofs.«146744_j8555574854313_1_alg».proof.Defs
import proofs.«146744_j8555574854313_1_alg».proof.Proof.Gen.ReferenceIdeal.Read
import proofs.«146744_j8555574854313_1_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.ValueIdx

/-! ## Where each operation reads its operands -/

/-- x·Wᵀ at (b, s, o), column k: x is read at (b, s, k) … -/
theorem lidx_v0 (bb : Fin 4) (s o k : Fin 2048) :
    Read.lidx_main_v0 (ix3 bb s o) k = ix3 bb s k :=
  funext fun a => Fin.ext (by match a with | ⟨0, _⟩ => rfl | ⟨1, _⟩ => rfl | ⟨2, _⟩ => rfl)

/-- … and W at (o, k). -/
theorem ridx_v0 (bb : Fin 4) (s o k : Fin 2048) :
    Read.ridx_main_v0 (ix3 bb s o) k = ix2 o k :=
  funext fun a => Fin.ext (by match a with | ⟨0, _⟩ => rfl | ⟨1, _⟩ => rfl)

/-- The bias, broadcast twice, is read at o. -/
theorem idx_bias (bb : Fin 4) (s o : Fin 2048) :
    Read.idx_main_v1 (Read.idx_main_v2 (ix3 bb s o)) = ix1 o :=
  funext fun a => Fin.ext (by match a with | ⟨0, _⟩ => rfl)

/-- x·Aᵀ at (b, s, j), column k: x is read at (b, s, k) … -/
theorem lidx_v4 (bb : Fin 4) (s : Fin 2048) (j : Fin 16) (k : Fin 2048) :
    Read.lidx_main_v4 (ix3 bb s j) k = ix3 bb s k :=
  funext fun a => Fin.ext (by match a with | ⟨0, _⟩ => rfl | ⟨1, _⟩ => rfl | ⟨2, _⟩ => rfl)

/-- … and A at (j, k). -/
theorem ridx_v4 (bb : Fin 4) (s : Fin 2048) (j : Fin 16) (k : Fin 2048) :
    Read.ridx_main_v4 (ix3 bb s j) k = ix2 j k :=
  funext fun a => Fin.ext (by match a with | ⟨0, _⟩ => rfl | ⟨1, _⟩ => rfl)

/-- (x·Aᵀ)·Bᵀ at (b, s, o), rank index j: x·Aᵀ is read at (b, s, j) … -/
theorem lidx_v5 (bb : Fin 4) (s o : Fin 2048) (j : Fin 16) :
    Read.lidx_main_v5 (ix3 bb s o) j = ix3 bb s j :=
  funext fun a => Fin.ext (by match a with | ⟨0, _⟩ => rfl | ⟨1, _⟩ => rfl | ⟨2, _⟩ => rfl)

/-- … and B at (o, j). -/
theorem ridx_v5 (bb : Fin 4) (s o : Fin 2048) (j : Fin 16) :
    Read.ridx_main_v5 (ix3 bb s o) j = ix2 o j :=
  funext fun a => Fin.ext (by match a with | ⟨0, _⟩ => rfl | ⟨1, _⟩ => rfl)

/-! ## The three contractions at an index -/

/-- Entry (b, s, o) of x·Wᵀ. -/
theorem dotW_apply (x : FVec Ideal S4x2048x2048 .f32) (W : FVec Ideal S2048x2048 .f32) (bb : Fin 4) (s o : Fin 2048) :
    Read.val_main_v0 (F := Ideal) x W (ix3 bb s o) = ∑ d : Fin 2048, x (ix3 bb s d) * W (ix2 o d) := by
  rw [Read.val_main_v0_apply]
  refine Finset.sum_congr rfl fun k _ => ?_
  rw [lidx_v0, ridx_v0]

/-- Entry (b, s, j) of x·Aᵀ. -/
theorem dotA_apply (x : FVec Ideal S4x2048x2048 .f32) (A : FVec Ideal S16x2048 .f32) (bb : Fin 4) (s : Fin 2048) (j : Fin 16) :
    Read.val_main_v4 (F := Ideal) x A (ix3 bb s j) = ∑ d : Fin 2048, x (ix3 bb s d) * A (ix2 j d) := by
  rw [Read.val_main_v4_apply]
  refine Finset.sum_congr rfl fun k _ => ?_
  rw [lidx_v4, ridx_v4]

/-- Entry (b, s, o) of (x·Aᵀ)·Bᵀ: the inner contraction sits inside the outer one's sum. -/
theorem dotAB_apply (x : FVec Ideal S4x2048x2048 .f32) (A : FVec Ideal S16x2048 .f32) (B : FVec Ideal S2048x16 .f32)
    (bb : Fin 4) (s o : Fin 2048) :
    Read.val_main_v5 (F := Ideal) x A B (ix3 bb s o)
      = ∑ j : Fin 16, (∑ d : Fin 2048, x (ix3 bb s d) * A (ix2 j d)) * B (ix2 o j) := by
  rw [Read.val_main_v5_apply]
  refine Finset.sum_congr rfl fun j _ => ?_
  rw [lidx_v5, ridx_v5, dotA_apply]

/-! ## The whole result -/

/-- The reference's result is the specification's array. -/
theorem ref_eq (x : FVec Ideal S4x2048x2048 .f32) (W : FVec Ideal S2048x2048 .f32) (b : FVec Ideal S2048 .f32)
    (A : FVec Ideal S16x2048 .f32) (B : FVec Ideal S2048x16 .f32) :
    addf (addf (Host.dotGeneral dot_S4x2048x2048_S2048x2048_S4x2048x2048_2_1_01_0_n_n none x W) (broadcastInDim S4x2048x2048 ![0, 1, 2] bcast_S1x1x2048_S4x2048x2048_0_1_2 (broadcastInDim S1x1x2048 ![2] bcast_S2048_S1x1x2048_2 b))) (mulf (Host.dotGeneral dot_S4x2048x16_S2048x16_S4x2048x2048_2_1_01_0_n_n none (Host.dotGeneral dot_S4x2048x2048_S16x2048_S4x2048x16_2_1_01_0_n_n none x A) B) (broadcastInDim S4x2048x2048 ![] bcast_S_S4x2048x2048 (constant (F := Ideal) S_ .f32 0x40000000#32)))
    = Cert.LoraSpec.result x W b A B := by
  rw [Read.val_main_v8_eq]
  funext i
  obtain ⟨bb, s, o, rfl⟩ : ∃ (bb : Fin 4) (s : Fin 2048) (o : Fin 2048), i = ix3 bb s o := ⟨i 0, i 1, i 2, eq_ix3 i⟩
  rw [Read.val_main_v8_apply, Read.val_main_v3_apply, Read.val_main_v2_apply, Read.val_main_v1_apply,
    Read.val_main_v7_apply, Read.val_main_v6_apply, Read.val_main_cst_apply, dotW_apply, dotAB_apply, idx_bias,
    Cert.LoraSpec.result_apply]
  unfold Cert.LoraSpec.out3
  simp only [Ideal.addf_def, Ideal.mulf_def, Ideal.ofBits_def]

end Cert.ReferenceIdeal.RefValue

end
-- ==== Proof.Claims.lean ====
/-
  The five claims.

  The three frames: the two kernel programs run to the end with their arguments unchanged (the generated frame
  certificates), and the reference is a straight line of host operations whose run keeps its arguments.  The
  idealization rewrote nothing, so it preserves the kernel trivially.  Over the extended reals the idealized
  kernel's result array and the reference's are one array of the five arguments:

      (∑_d x[b,s,d]·W[o,d] + bias[o]) + (∑_j (∑_d x[b,s,d]·A[j,d]) · B[o,j]) · 2      at every (b, s, o);

  the kernel reaches each contraction over d in four K-tiles added to a zero, which is the same sum, and no
  hypothesis on the inputs is used.
-/
import proofs.«146744_j8555574854313_1_alg».proof.Defs
import proofs.«146744_j8555574854313_1_alg».proof.Proof.Gen.Kernel
import proofs.«146744_j8555574854313_1_alg».proof.Proof.Gen.Kernel.Frame
import proofs.«146744_j8555574854313_1_alg».proof.Proof.Gen.KernelIdeal
import proofs.«146744_j8555574854313_1_alg».proof.Proof.Gen.KernelIdeal.Frame
import proofs.«146744_j8555574854313_1_alg».proof.Proof.Gen.ReferenceIdeal
import proofs.«146744_j8555574854313_1_alg».proof.Proof.Gen.ReferenceIdeal.Run
import proofs.«146744_j8555574854313_1_alg».proof.Proof.Gen.Pre_finite_inputs
import proofs.«146744_j8555574854313_1_alg».proof.Proof.KValue
import proofs.«146744_j8555574854313_1_alg».proof.Proof.RefValue

noncomputable section

namespace Cert.Proof.Claims

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run keeps its arguments: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end at the specification's array of arguments that agree. -/
theorem algebraic : Cert.algebraic_KernelIdeal_ReferenceIdeal := by
  intro m ρ m' ρ' _ hagree
  refine ⟨fun c => Cert.LoraSpec.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact Cert.ReferenceIdeal.RefValue.ref_eq _ _ _ _ _

end Cert.Proof.Claims

end
-- ==== Proof.lean ====
/- The proof of `Cert.Claim`: LinearWithLoRA as a K-tiled kernel against its einsum reference.

   base = x·Wᵀ + b and lora = ((x·Aᵀ)·Bᵀ)·2 are added; the kernel tiles rows, output features and the contracted
   axis (8 × 2 × 4 grid points), keeps the base product and the rank-16 bottleneck in two accumulators across the four
   K-tiles, and writes (acc + bias) + (low·Bᵀ)·2 at the last tile.  The modules, in order: Spec (the result index by
   index, and the sum over 2048 columns as four tiles of 512), Pieces (what each control case of the body leaves),
   Payload (the body's arithmetic at an index), Blocks (where each window's block sits in its array), Arrays (the
   host reshapes around the region), Invariant (the accumulators after every point, by induction), KValue (the
   kernel's run ends at the specification's array), RefValue (so does the reference's), Claims (the five claims). -/
import proofs.«146744_j8555574854313_1_alg».proof.Defs
import proofs.«146744_j8555574854313_1_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
